-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128x128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S200x10000 : Shape := ⟨2, ![200, 10000]⟩
abbrev S200x128 : Shape := ⟨2, ![200, 128]⟩

abbrev nBuf : Space → Nat
  | .hbm => 15
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S10000x128, .bf16⟩
  | .hbm, ⟨11, _⟩ => ⟨S10000x128, .f32⟩
  | .hbm, ⟨12, _⟩ => ⟨S10000x128, .bf16⟩
  | .hbm, ⟨13, _⟩ => ⟨S10000x128, .f32⟩
  | .hbm, ⟨14, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S200x10000, .f32⟩
  | .local _ .vmem, ⟨10, _⟩ => ⟨S200x10000, .f32⟩
  | .local _ .vmem, ⟨11, _⟩ => ⟨S10000x128, .bf16⟩
  | .local _ .vmem, ⟨12, _⟩ => ⟨S200x128, .f32⟩
  | .local _ .vmem, ⟨13, _⟩ => ⟨S200x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S200x128, .bf16⟩
  | .local _ .vmem, ⟨18, _⟩ => ⟨S200x128, .bf16⟩
  | .local _ .vmem, ⟨19, _⟩ => ⟨S200x128, .f32⟩
  | .local _ .vmem, ⟨20, _⟩ => ⟨S200x128, .f32⟩
  | .local _ .vmem, ⟨21, _⟩ => ⟨S200x10000, .f32⟩
  | .local _ .vmem, ⟨22, _⟩ => ⟨S200x10000, .f32⟩
  | .local _ .vmem, ⟨23, _⟩ => ⟨S10000x128, .bf16⟩
  | .local _ .vmem, ⟨24, _⟩ => ⟨S200x128, .f32⟩
  | .local _ .vmem, ⟨25, _⟩ => ⟨S200x128, .f32⟩
  | .local _ .vmem, ⟨26, _⟩ => ⟨S200x128, .f32⟩
  | .local _ .vmem, ⟨27, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2_0 : Ref sig .tc := ⟨.hbm, 10, rfl⟩
abbrev main_call0_v2_1 : Ref sig .tc := ⟨.hbm, 11, rfl⟩
abbrev main_call0_v3_0 : Ref sig .tc := ⟨.hbm, 12, rfl⟩
abbrev main_call0_v3_1 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S200x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S200x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  broadcasts_S1x128_S200x128 : S1x128.Broadcasts S200x128
  packedbf16_S200x128_S200x128_0_0 : (Rect.unit (s := S200x128) ![0, 0] S200x128.size inb_S200x128_S200x128_0_0).PackedRows (EltTy.packing .bf16)
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .bf16 = 32 ∨ (Rect.block (s := S10000x128) S2000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x128.size a ≤ S10000x128.size a
  hwx1_2 : ∀ i : grid1.Coords, EltTy.bits .f32 = 32 ∨ (Rect.block (s := S10000x128) S200x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x128.size a ≤ S10000x128.size a
  hwx1_6 : ∀ i : grid1.Coords, EltTy.bits .bf16 = 32 ∨ (Rect.block (s := S10000x128) S200x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S200x128.size a ≤ S10000x128.size a
  hwx1_7 : ∀ i : grid1.Coords, EltTy.bits .f32 = 32 ∨ (Rect.block (s := S10000x128) S200x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x128.size a ≤ S10000x128.size a
  hwx2_2 : ∀ i : grid2.Coords, EltTy.bits .f32 = 32 ∨ (Rect.block (s := S10000x128) S200x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x128.size a ≤ S10000x128.size a
  hwx2_3 : ∀ i : grid2.Coords, EltTy.bits .f32 = 32 ∨ (Rect.block (s := S10000x128) S200x128.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2_1) S200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v1) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v3_0) S200x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v3_1) S200x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3_1) S200x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S200x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The two-layer dense hypergraph convolution as functions of whole arrays, index by index, on the extended reals.

  With x the [10000,128] feature array, g the [10000,10000] operator, w, sw the [128,128] weights and b a bias row:
    layer(h)  =  g · (h · w + b) + h · sw,
    out       =  layer₂ (max (layer₁ x) 0).
  Every product is the plain sum over the contracted coordinate; nothing here depends on how a product is tiled,
  in which order a sum is taken or in which float format an intermediate is kept.
-/
import Idealize.ShloMosaic.PureOps.Ideal
import Idealize.ShloMosaic.Lib.ValueIdx

noncomputable section

open scoped BigOperators

namespace Cert.HConv

open Idealize.ShloMosaic Idealize.ShloMosaic.ValueIdx

/-- Features and every intermediate: one row of 128 per node. -/
abbrev SX : Shape := ⟨2, ![10000, 128]⟩
/-- The node-by-node operator. -/
abbrev SA : Shape := ⟨2, ![10000, 10000]⟩
/-- A weight matrix. -/
abbrev SWt : Shape := ⟨2, ![128, 128]⟩
/-- A bias laid out as one row. -/
abbrev SRow : Shape := ⟨2, ![1, 128]⟩
/-- A bias vector. -/
abbrev SBias : Shape := ⟨1, ![128]⟩

/-- The first coordinate of a rank-2 index, as a number below the literal extent. -/
abbrev fst2 {n0 n1 : Nat} (i : (⟨2, ![n0, n1]⟩ : Shape).Idx) : Fin n0 := ⟨(i 0).val, (i 0).isLt⟩
/-- The second coordinate of a rank-2 index, as a number below the literal extent. -/
abbrev snd2 {n0 n1 : Nat} (i : (⟨2, ![n0, n1]⟩ : Shape).Idx) : Fin n1 := ⟨(i 1).val, (i 1).isLt⟩

/-- The float zero both programs compare against and accumulate into, kept as its word. -/
abbrev zeroF : EReal := Ideal.ofBits .f32 0x00000000#32

/-- `(a · w)(r, q) = Σ_k a(r, k) · w(k, q)`: a feature array times a weight matrix. -/
def proj (a : SX.Idx → EReal) (w : SWt.Idx → EReal) : SX.Idx → EReal :=
  fun i => ∑ k : Fin 128, a (ix2 (fst2 i) k) * w (ix2 k (snd2 i))

/-- A bias vector laid out as a single row. -/
def biasRow (b : SBias.Idx → EReal) : SRow.Idx → EReal := fun j => b (ix1 (snd2 j))

/-- `a · w + b`, the row `b` added to every row. -/
def projBias (a : SX.Idx → EReal) (w : SWt.Idx → EReal) (b : SRow.Idx → EReal) : SX.Idx → EReal :=
  fun i => proj a w i + b (ix2 (0 : Fin 1) (snd2 i))

/-- `(g · s)(r, q) + p(r, q)`: the operator applied to the support, plus the self-loop term. -/
def agg (g : SA.Idx → EReal) (s p : SX.Idx → EReal) : SX.Idx → EReal :=
  fun i => (∑ k : Fin 10000, g (ix2 (fst2 i) k) * s (ix2 k (snd2 i))) + p i

/-- The hidden layer: the aggregate clipped below at zero. -/
def hidden (g : SA.Idx → EReal) (s p : SX.Idx → EReal) : SX.Idx → EReal :=
  fun i => max (agg g s p i) zeroF

/-- The whole convolution: two layers, the first followed by the clip. -/
def conv2 (x : SX.Idx → EReal) (g : SA.Idx → EReal) (w1 sw1 : SWt.Idx → EReal) (b1 : SRow.Idx → EReal)
    (w2 sw2 : SWt.Idx → EReal) (b2 : SRow.Idx → EReal) : SX.Idx → EReal :=
  agg g (projBias (hidden g (projBias x w1 b1) (proj x sw1)) w2 b2) (proj (hidden g (projBias x w1 b1) (proj x sw1)) sw2)

end Cert.HConv

end
-- ==== Proof.Region0.lean ====
/-
  First launch (grid of 5 row blocks of 2000): from the feature array x, the weights w1, sw1 and the bias row b1 it
  leaves the support  x · w1 + b1  and the self-loop term  x · sw1,  whole arrays, whatever the buffers held at entry.
-/
import proofs.«116259_g5179730559512_cont_sun_m_342_2_alg».proof.Proof.Gen.KernelIdeal.Frame
import proofs.«116259_g5179730559512_cont_sun_m_342_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stage

open Cert.KernelIdeal Cert.KernelIdeal.Gen Cert.HConv
open Idealize.ShloMosaic Idealize.ShloMosaic.TcCoe Idealize.ShloMosaic.ValueIdx Idealize.SL.Sem
open Idealize.ShloMosaic.Pipeline (Dat Cfg Window)

namespace First

/-! ## One product of a block of rows with a weight matrix, at an index -/

/-- The left factor is read at the result's row, -/
theorem prodL_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and at the summation coordinate as its column; -/
theorem prodL_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right factor at the summation coordinate as its row, -/
theorem prodR_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and at the result's column. -/
theorem prodR_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times a weight matrix, accumulated into zero: entry `(p, q)` is `Σ_k a(p, k) · w(k, q)`. -/
theorem prod_at (a : Vec Ideal S2000x128 .f32) (w : Vec Ideal S128x128 .f32) (p : Fin 2000) (q : Fin 128) :
    matmul (F := Ideal) (φ₁ := .f32) (φ₂ := .f32) dot_S2000x128_S128x128_S2000x128_1_0_0_1_n_n (some .fp32) a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun d => Fin.ext (by
    match d with
    | ⟨0, _⟩ => exact prodL_row _ _
    | ⟨1, _⟩ => exact (prodL_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun d => Fin.ext (by
    match d with
    | ⟨0, _⟩ => exact (prodR_row _ _).trans hk
    | ⟨1, _⟩ => exact prodR_col _ _)
  rw [el, er]

/-- The self-loop payload at an index of the block. -/
theorem selfPay_at (a : Vec Ideal S2000x128 .f32) (w : Vec Ideal S128x128 .f32) (p : Fin 2000) (q : Fin 128) :
    k0_pay2 a w (ix2 p q) = ∑ k : Fin 128, a (ix2 p k) * w (ix2 k q) := by
  unfold k0_pay2
  exact prod_at a w p q

/-- The bias row laid over the 2000 rows of a block: entry `(p, q)` is the row's entry `q`. -/
theorem biasRows_at (b : Vec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  refine broadcastTo_apply b broadcasts_S1x128_S2000x128 (ix2 p q) (ix2 (0 : Fin 1) q) fun d => ?_
  match d with
  | ⟨0, _⟩ => show (0 : Nat) = if (1 : Nat) = 1 then 0 else p.val; rw [if_pos rfl]
  | ⟨1, _⟩ => show q.val = if (128 : Nat) = 1 then 0 else q.val; rw [if_neg (by decide)]

/-- The support payload at an index of the block: the product plus the bias row's entry (the narrowing of the stored
    value is the identity on the extended reals). -/
theorem supportPay_at (a : Vec Ideal S2000x128 .f32) (w : Vec Ideal S128x128 .f32) (b : Vec Ideal S1x128 .f32)
    (p : Fin 2000) (q : Fin 128) :
    k0_pay1 a w b (ix2 p q) = (∑ k : Fin 128, a (ix2 p k) * w (ix2 k q)) + b (ix2 (0 : Fin 1) q) := by
  unfold k0_pay1
  simp only [truncf_apply, addf_apply]
  rw [prod_at, biasRows_at]

-- the core's buffer contents when the region is entered: any contents at all
variable (V : (c : Dev nD) → (b : Ref sig .tc) → Buf (Elt Ideal) ((c : Thread nD τ).loc b))

/-! ## From the blocks to the arrays -/

/-- The zero offsets of a whole-buffer access. -/
theorem origin2 : (![0, 0] : Fin 2 → Nat) = fun _ => 0 := funext fun a => by fin_cases a <;> rfl

/-- Where each window's block sits at grid point `t`: the row-blocked windows (the features and the two results) at
    block row `t`, the weights and the bias row at the one block they have. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back to the self-loop array is block `t` of `x · sw1`. -/
theorem selfloop_flushed (c : Dev nD) (t : Fin cfg0.N) :
    (dat0 (F := Ideal) V c).flushed 5 t
      = ((cfg0.win 5).blk t).view.read (Elt Ideal) (proj (V c (Pipeline.arrRef spec0 0)) (V c (Pipeline.arrRef spec0 2))) := by
  show (cfg0.win 5).cut (grid0.coords t) ((dat0 V c).after 5 t) = _
  rw [after0_5]
  unfold out0_5
  rw [View.canon_unit_zero origin2]
  simp only [View.ld_unit_zero (S := S2000x128) origin2, View.ld_unit_zero (S := S128x128) origin2]
  obtain ⟨e00, e01, e10, e11, e20, e21, e30, e31, e40, e41, e50, e51⟩ := blockIdx t
  funext j
  obtain ⟨p, q, rfl⟩ : ∃ (p : Fin 2000) (q : Fin 128), j = ix2 p q := ⟨j 0, j 1, eq_ix2 j⟩
  show k0_pay2 (iblk0 V c 0 t) (iblk0 V c 2 t) (ix2 p q)
      = proj (V c (Pipeline.arrRef spec0 0)) (V c (Pipeline.arrRef spec0 2)) (((cfg0.win 5).blk t).view.emb (ix2 p q))
  rw [selfPay_at]
  unfold proj
  refine Finset.sum_congr rfl fun k _ => ?_
  have hx : iblk0 V c 0 t (ix2 p k)
      = V c (Pipeline.arrRef spec0 0) (ix2 (fst2 (((cfg0.win 5).blk t).view.emb (ix2 p q))) k) := by
    show V c (Pipeline.arrRef spec0 0) (((cfg0.win 0).blk t).view.emb (ix2 p k)) = _
    congr 1; funext a; apply Fin.ext
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * k.val = k.val; omega
  have hw : iblk0 V c 2 t (ix2 k q)
      = V c (Pipeline.arrRef spec0 2) (ix2 k (snd2 (((cfg0.win 5).blk t).view.emb (ix2 p q)))) := by
    show V c (Pipeline.arrRef spec0 2) (((cfg0.win 2).blk t).view.emb (ix2 k q)) = _
    congr 1; funext a; apply Fin.ext
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  rw [hx, hw]

/-- An index of the self-loop array lies in point `t`'s block exactly when, on each axis, its coordinate is among the
    block's. -/
theorem selfloop_mem_blk (t : Fin cfg0.N) (i : S10000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_call0_v2_1).slice (win0_5.rect t)).set ↔ _
  rw [View.set_slice_whole, Rect.mem_set_unit]
  exact Iff.rfl

/-- Row `r` of the self-loop array is written by point `r / 2000`: the five blocks of 2000 rows cover the array. -/
theorem selfloop_cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ : ∃ t : Fin cfg0.N, t.val = (i 0).val / 2000 :=
    ⟨⟨(i 0).val / 2000, by rw [show cfg0.N = 5 from N_0]; omega⟩, rfl⟩
  obtain ⟨e00, e01, e10, e11, e20, e21, e30, e31, e40, e41, e50, e51⟩ := blockIdx t
  refine ⟨t, flush0_5 t, ?_⟩
  rw [selfloop_mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- What point `t` writes back to the support array is block `t` of `x · w1 + b1`. -/
theorem support_flushed (c : Dev nD) (t : Fin cfg0.N) :
    (dat0 (F := Ideal) V c).flushed 4 t
      = ((cfg0.win 4).blk t).view.read (Elt Ideal)
          (projBias (V c (Pipeline.arrRef spec0 0)) (V c (Pipeline.arrRef spec0 1)) (V c (Pipeline.arrRef spec0 3))) := by
  show (cfg0.win 4).cut (grid0.coords t) ((dat0 V c).after 4 t) = _
  rw [after0_4]
  unfold out0_4
  rw [View.canon_unit_zero origin2]
  simp only [View.ld_unit_zero (S := S2000x128) origin2, View.ld_unit_zero (S := S128x128) origin2,
    View.ld_unit_zero (S := S1x128) origin2]
  obtain ⟨e00, e01, e10, e11, e20, e21, e30, e31, e40, e41, e50, e51⟩ := blockIdx t
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 3 t) (ix2 p q)
      = projBias (V c (Pipeline.arrRef spec0 0)) (V c (Pipeline.arrRef spec0 1)) (V c (Pipeline.arrRef spec0 3))
          (((cfg0.win 4).blk t).view.emb (ix2 p q))
  rw [supportPay_at]
  unfold projBias proj
  have hb : iblk0 V c 3 t (ix2 (0 : Fin 1) q)
      = V c (Pipeline.arrRef spec0 3) (ix2 (0 : Fin 1) (snd2 (((cfg0.win 4).blk t).view.emb (ix2 p q)))) := by
    show V c (Pipeline.arrRef spec0 3) (((cfg0.win 3).blk t).view.emb (ix2 (0 : Fin 1) q)) = _
    congr 1; funext a; apply Fin.ext
    match a with
    | ⟨0, _⟩ => show win0_3.index t (0 : Fin 2) * 1 + 1 * 0 = 0; omega
    | ⟨1, _⟩ => show win0_3.index t (1 : Fin 2) * 128 + 1 * q.val = win0_4.index t (1 : Fin 2) * 128 + 1 * q.val; omega
  rw [hb]
  refine congrArg (· + _) (Finset.sum_congr rfl fun k _ => ?_)
  have hx : iblk0 V c 0 t (ix2 p k)
      = V c (Pipeline.arrRef spec0 0) (ix2 (fst2 (((cfg0.win 4).blk t).view.emb (ix2 p q))) k) := by
    show V c (Pipeline.arrRef spec0 0) (((cfg0.win 0).blk t).view.emb (ix2 p k)) = _
    congr 1; funext a; apply Fin.ext
    match a with
    | ⟨0, _⟩ => show win0_0.index t (0 : Fin 2) * 2000 + 1 * p.val = win0_4.index t (0 : Fin 2) * 2000 + 1 * p.val; omega
    | ⟨1, _⟩ => show win0_0.index t (1 : Fin 2) * 128 + 1 * k.val = k.val; omega
  have hw : iblk0 V c 1 t (ix2 k q)
      = V c (Pipeline.arrRef spec0 1) (ix2 k (snd2 (((cfg0.win 4).blk t).view.emb (ix2 p q)))) := by
    show V c (Pipeline.arrRef spec0 1) (((cfg0.win 1).blk t).view.emb (ix2 k q)) = _
    congr 1; funext a; apply Fin.ext
    match a with
    | ⟨0, _⟩ => show win0_1.index t (0 : Fin 2) * 128 + 1 * k.val = k.val; omega
    | ⟨1, _⟩ => show win0_1.index t (1 : Fin 2) * 128 + 1 * q.val = win0_4.index t (1 : Fin 2) * 128 + 1 * q.val; omega
  rw [hx, hw]

/-- An index of the support array lies in point `t`'s block exactly when, on each axis, its coordinate is among the
    block's. -/
theorem support_mem_blk (t : Fin cfg0.N) (i : S10000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_call0_v2_0).slice (win0_4.rect t)).set ↔ _
  rw [View.set_slice_whole, Rect.mem_set_unit]
  exact Iff.rfl

/-- Row `r` of the support array is written by point `r / 2000`: the five blocks of 2000 rows cover the array. -/
theorem support_cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ : ∃ t : Fin cfg0.N, t.val = (i 0).val / 2000 :=
    ⟨⟨(i 0).val / 2000, by rw [show cfg0.N = 5 from N_0]; omega⟩, rfl⟩
  obtain ⟨e00, e01, e10, e11, e20, e21, e30, e31, e40, e41, e50, e51⟩ := blockIdx t
  refine ⟨t, flush0_4 t, ?_⟩
  rw [support_mem_blk]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 128 ≤ (i 1).val ∧ (i 1).val < win0_4.index t (1 : Fin 2) * 128 + 128
    omega

end First

-- the core's buffer contents when the region is entered: any contents at all
variable (V : (c : Dev nD) → (b : Ref sig .tc) → Buf (Elt Ideal) ((c : Thread nD τ).loc b))

/-- After the first launch the support array is `x · w1 + b1`. -/
theorem support1 (c : Dev nD) :
    (dat0 (F := Ideal) V c).arrAt 4 cfg0.N
      = projBias (V c (Pipeline.arrRef spec0 0)) (V c (Pipeline.arrRef spec0 1)) (V c (Pipeline.arrRef spec0 3)) :=
  (dat0 (F := Ideal) V c).arrAt_eq_of_cover 4 _ (fun t _ => First.support_flushed V c t) First.support_cover

/-- After the first launch the self-loop array is `x · sw1`. -/
theorem selfloop1 (c : Dev nD) :
    (dat0 (F := Ideal) V c).arrAt 5 cfg0.N
      = proj (V c (Pipeline.arrRef spec0 0)) (V c (Pipeline.arrRef spec0 2)) :=
  (dat0 (F := Ideal) V c).arrAt_eq_of_cover 5 _ (fun t _ => First.selfloop_flushed V c t) First.selfloop_cover

end Cert.KernelIdeal.Stage

end
-- ==== Proof.Region1.lean ====
/-
  Second launch (grid of 50 row blocks of 200): from the operator g, the first layer's support s1 and self-loop
  term p1, the weights w2, sw2 and the bias row b2 it leaves, with  h = max (g · s1 + p1) 0  never stored,
  the second support  h · w2 + b2  and the second self-loop term  h · sw2.

  The road: each of the launch's products read at an index is the plain sum over the contracted coordinate; the body's
  arithmetic at entry (p, q) of a block is therefore the specification's function at row r whenever the operator's and
  the self-loop term's blocks are rows r of their arrays; at grid point t those rows are t·200 + p; the 50 blocks of 200
  rows cover the 10000 rows of each output array.
-/
import proofs.«116259_g5179730559512_cont_sun_m_342_2_alg».proof.Proof.Gen.KernelIdeal.Frame
import proofs.«116259_g5179730559512_cont_sun_m_342_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stage

open Cert.KernelIdeal Cert.KernelIdeal.Gen Cert.HConv
open Idealize.ShloMosaic Idealize.ShloMosaic.TcCoe Idealize.ShloMosaic.ValueIdx Idealize.SL.Sem
open Idealize.ShloMosaic.Pipeline (Dat Cfg Window)

-- the core's buffer contents when the region is entered: any contents at all
variable (V : (c : Dev nD) → (b : Ref sig .tc) → Buf (Elt Ideal) ((c : Thread nD τ).loc b))

namespace Second

/-! ## The two products of the launch, read at an index

  Each product's operand indices at output index (p, q) and contraction index k are (p, k) and (k, q):
  the contracted axis is the left operand's second and the right operand's first. -/

theorem opLhs_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem opLhs_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem opRhs_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem opRhs_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The operator's row block times the support: entry (p, q) is the sum over the 10000 nodes. -/
theorem opMatmul_apply {φ₁ φ₂ : FTy} (a : FVec Ideal S200x10000 φ₁) (b : FVec Ideal S10000x128 φ₂) (p : Fin 200) (q : Fin 128) :
    matmul dot_S200x10000_S10000x128_S200x128_1_0_0_1_n_n none a b (constant S200x128 .f32 0x00000000#32) (ix2 p q)
      = ∑ k : Fin 10000, a (ix2 p k) * b (ix2 k q) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 p q) ((ValueIdx.contrEquiv1 dot_S200x10000_S10000x128_S200x128_1_0_0_1_n_n 10000 rfl rfl).symm k) = ix2 p k := funext fun a => Fin.ext (by
    match a with
    | ⟨0, _⟩ => exact opLhs_0 _ _
    | ⟨1, _⟩ => exact (opLhs_1 _ _).trans hk)
  have er : dot_S200x10000_S10000x128_S200x128_1_0_0_1_n_n.rhsIdx (ix2 p q) ((ValueIdx.contrEquiv1 dot_S200x10000_S10000x128_S200x128_1_0_0_1_n_n 10000 rfl rfl).symm k) = ix2 k q := funext fun a => Fin.ext (by
    match a with
    | ⟨0, _⟩ => exact (opRhs_0 _ _).trans hk
    | ⟨1, _⟩ => exact opRhs_1 _ _)
  rw [el, er]

theorem wtLhs_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem wtLhs_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem wtRhs_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem wtRhs_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- A block of 200 feature rows times a weight matrix: entry (p, q) is the sum over the 128 features. -/
theorem wtMatmul_apply {φ₁ φ₂ : FTy} (a : FVec Ideal S200x128 φ₁) (b : FVec Ideal S128x128 φ₂) (prec : Option ContractPrecision) (p : Fin 200) (q : Fin 128) :
    matmul dot_S200x128_S128x128_S200x128_1_0_0_1_n_n prec a b (constant S200x128 .f32 0x00000000#32) (ix2 p q)
      = ∑ k : Fin 128, a (ix2 p k) * b (ix2 k q) := by
  simp only [matmul]
  rw [Ideal.matmul_constant_zero_apply, ← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx (ix2 p q) ((ValueIdx.contrEquiv1 dot_S200x128_S128x128_S200x128_1_0_0_1_n_n 128 rfl rfl).symm k) = ix2 p k := funext fun a => Fin.ext (by
    match a with
    | ⟨0, _⟩ => exact wtLhs_0 _ _
    | ⟨1, _⟩ => exact (wtLhs_1 _ _).trans hk)
  have er : dot_S200x128_S128x128_S200x128_1_0_0_1_n_n.rhsIdx (ix2 p q) ((ValueIdx.contrEquiv1 dot_S200x128_S128x128_S200x128_1_0_0_1_n_n 128 rfl rfl).symm k) = ix2 k q := funext fun a => Fin.ext (by
    match a with
    | ⟨0, _⟩ => exact (wtRhs_0 _ _).trans hk
    | ⟨1, _⟩ => exact wtRhs_1 _ _)
  rw [el, er]

/-! ## The body's arithmetic at an index of the block -/

/-- The bias row stretched over the 200 rows of a block reads, in every row, the row's entry of that column. -/
theorem rowBroadcast_apply {α : Type} (b : S1x128.Idx → α) (h : S1x128.Broadcasts S200x128) (p : Fin 200) (q : Fin 128) :
    broadcastTo S200x128 b h (ix2 p q) = b (ix2 (0 : Fin 1) q) := by
  refine broadcastTo_apply b h (ix2 p q) (ix2 (0 : Fin 1) q) fun a => ?_
  match a with
  | ⟨0, _⟩ => rfl
  | ⟨1, _⟩ => rfl

/-- The hidden block: the operator's rows applied to the support plus the self-loop block, clipped below at zero. -/
theorem hiddenBlock_apply (x0 : Vec Ideal S200x10000 .f32) (x2 : Vec Ideal S10000x128 .bf16) (x5 : Vec Ideal S200x128 .f32)
    (p : Fin 200) (q : Fin 128) :
    k1_pay1 x0 x2 x5 (ix2 p q) = max ((∑ k : Fin 10000, x0 (ix2 p k) * x2 (ix2 k q)) + x5 (ix2 p q)) zeroF := by
  unfold k1_pay1
  simp only [maximumf_apply, addf_apply, broadcast_apply, shapeCast_self, opMatmul_apply, truncf_apply]
  rfl

/-- The self-loop payload: the hidden block times the self-loop weights. -/
theorem selfloopBlock_apply (x0 : Vec Ideal S200x10000 .f32) (x2 : Vec Ideal S10000x128 .bf16) (x5 : Vec Ideal S200x128 .f32)
    (x18 : Vec Ideal S128x128 .f32) (p : Fin 200) (q : Fin 128) :
    k1_pay3 x0 x2 x5 x18 (ix2 p q) = ∑ k : Fin 128, k1_pay1 x0 x2 x5 (ix2 p k) * x18 (ix2 k q) := by
  unfold k1_pay3
  simp only [wtMatmul_apply]

/-- The support payload: the hidden block times the weights, plus the bias row. -/
theorem supportBlock_apply (x0 : Vec Ideal S200x10000 .f32) (x2 : Vec Ideal S10000x128 .bf16) (x5 : Vec Ideal S200x128 .f32)
    (x10 : Vec Ideal S128x128 .f32) (x12 : Vec Ideal S1x128 .f32) (p : Fin 200) (q : Fin 128) :
    k1_pay2 x0 x2 x5 x10 x12 (ix2 p q)
      = (∑ k : Fin 128, k1_pay1 x0 x2 x5 (ix2 p k) * x10 (ix2 k q)) + x12 (ix2 (0 : Fin 1) q) := by
  unfold k1_pay2
  simp only [truncf_apply, addf_apply, wtMatmul_apply, rowBroadcast_apply, shapeCast_self]

/-! ## The same at blocks that are rows of whole arrays

  When the operator's block is rows `r` of an operator `g`, the self-loop block rows `r` of `p1`, and the support,
  weights and bias row are whole arrays, the payloads are the specification's functions at row `r`. -/

theorem hiddenBlock_eq (g : SA.Idx → EReal) (s p1 : SX.Idx → EReal)
    (x0 : Vec Ideal S200x10000 .f32) (x2 : Vec Ideal S10000x128 .bf16) (x5 : Vec Ideal S200x128 .f32) (r : Fin 10000) (p : Fin 200)
    (h0 : ∀ k : Fin 10000, x0 (ix2 p k) = g (ix2 r k)) (h2 : ∀ (k : Fin 10000) (q : Fin 128), x2 (ix2 k q) = s (ix2 k q))
    (h5 : ∀ q : Fin 128, x5 (ix2 p q) = p1 (ix2 r q)) (q : Fin 128) :
    k1_pay1 x0 x2 x5 (ix2 p q) = hidden g s p1 (ix2 r q) := by
  rw [hiddenBlock_apply, h5 q]
  simp only [h0, h2]
  rfl

theorem selfloopBlock_eq (g : SA.Idx → EReal) (s p1 : SX.Idx → EReal) (w : SWt.Idx → EReal)
    (x0 : Vec Ideal S200x10000 .f32) (x2 : Vec Ideal S10000x128 .bf16) (x5 : Vec Ideal S200x128 .f32) (x18 : Vec Ideal S128x128 .f32)
    (r : Fin 10000) (p : Fin 200)
    (h0 : ∀ k : Fin 10000, x0 (ix2 p k) = g (ix2 r k)) (h2 : ∀ (k : Fin 10000) (q : Fin 128), x2 (ix2 k q) = s (ix2 k q))
    (h5 : ∀ q : Fin 128, x5 (ix2 p q) = p1 (ix2 r q)) (h18 : ∀ k q : Fin 128, x18 (ix2 k q) = w (ix2 k q)) (q : Fin 128) :
    k1_pay3 x0 x2 x5 x18 (ix2 p q) = proj (hidden g s p1) w (ix2 r q) := by
  rw [selfloopBlock_apply]
  simp only [hiddenBlock_eq g s p1 x0 x2 x5 r p h0 h2 h5, h18]
  rfl

theorem supportBlock_eq (g : SA.Idx → EReal) (s p1 : SX.Idx → EReal) (w : SWt.Idx → EReal) (b : SRow.Idx → EReal)
    (x0 : Vec Ideal S200x10000 .f32) (x2 : Vec Ideal S10000x128 .bf16) (x5 : Vec Ideal S200x128 .f32) (x10 : Vec Ideal S128x128 .f32)
    (x12 : Vec Ideal S1x128 .f32) (r : Fin 10000) (p : Fin 200)
    (h0 : ∀ k : Fin 10000, x0 (ix2 p k) = g (ix2 r k)) (h2 : ∀ (k : Fin 10000) (q : Fin 128), x2 (ix2 k q) = s (ix2 k q))
    (h5 : ∀ q : Fin 128, x5 (ix2 p q) = p1 (ix2 r q)) (h10 : ∀ k q : Fin 128, x10 (ix2 k q) = w (ix2 k q))
    (h12 : ∀ q : Fin 128, x12 (ix2 (0 : Fin 1) q) = b (ix2 (0 : Fin 1) q)) (q : Fin 128) :
    k1_pay2 x0 x2 x5 x10 x12 (ix2 p q) = projBias (hidden g s p1) w b (ix2 r q) := by
  rw [supportBlock_apply, h12 q]
  simp only [hiddenBlock_eq g s p1 x0 x2 x5 r p h0 h2 h5, h10]
  rfl

/-! ## From blocks to the arrays -/

theorem zeroOff : (![0, 0] : Fin 2 → Nat) = fun _ => 0 := funext fun a => by fin_cases a <;> rfl

/-- The block index of every window at every grid point: the row-blocked windows sit at block row `t`, column block 0;
    the whole-array windows at block (0, 0). -/
theorem blockIdx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `p` of the `t`-th block of 200 rows, as a row of the whole array. -/
def blockRow (t : Fin cfg1.N) (p : Fin 200) : Fin 10000 :=
  ⟨t.val * 200 + p.val, by have := lt_of_lt_of_eq t.isLt N_1; have := p.isLt; omega⟩

theorem blockRow_val (t : Fin cfg1.N) (p : Fin 200) : (blockRow t p).val = t.val * 200 + p.val := rfl

/-- The operator's block at point `t` is rows `t·200 …` of the operator. -/
theorem opBlock_apply (c : Dev nD) (t : Fin cfg1.N) (p : Fin 200) (k : Fin 10000) :
    iblk1 (F := Ideal) V c 0 t (ix2 p k) = V c (Pipeline.arrRef spec1 0) (ix2 (blockRow t p) k) := by
  show V c (Pipeline.arrRef spec1 0) (((cfg1.win 0).blk t).view.emb (ix2 p k)) = _
  refine congrArg _ (funext fun a => Fin.ext ?_)
  obtain ⟨e0, e1, -⟩ := blockIdx t
  match a with
  | ⟨0, _⟩ => show win1_0.index t (0 : Fin 2) * 200 + 1 * p.val = t.val * 200 + p.val; omega
  | ⟨1, _⟩ => show win1_0.index t (1 : Fin 2) * 10000 + 1 * k.val = k.val; omega

/-- The support's block is the whole support. -/
theorem supBlock_apply (c : Dev nD) (t : Fin cfg1.N) (k : Fin 10000) (q : Fin 128) :
    iblk1 (F := Ideal) V c 1 t (ix2 k q) = V c (Pipeline.arrRef spec1 1) (ix2 k q) := by
  show V c (Pipeline.arrRef spec1 1) (((cfg1.win 1).blk t).view.emb (ix2 k q)) = _
  refine congrArg _ (funext fun a => Fin.ext ?_)
  obtain ⟨-, -, e0, e1, -⟩ := blockIdx t
  match a with
  | ⟨0, _⟩ => show win1_1.index t (0 : Fin 2) * 10000 + 1 * k.val = k.val; omega
  | ⟨1, _⟩ => show win1_1.index t (1 : Fin 2) * 128 + 1 * q.val = q.val; omega

/-- The self-loop term's block at point `t` is rows `t·200 …` of the self-loop term. -/
theorem selfBlock_apply (c : Dev nD) (t : Fin cfg1.N) (p : Fin 200) (q : Fin 128) :
    iblk1 (F := Ideal) V c 2 t (ix2 p q) = V c (Pipeline.arrRef spec1 2) (ix2 (blockRow t p) q) := by
  show V c (Pipeline.arrRef spec1 2) (((cfg1.win 2).blk t).view.emb (ix2 p q)) = _
  refine congrArg _ (funext fun a => Fin.ext ?_)
  obtain ⟨-, -, -, -, e0, e1, -⟩ := blockIdx t
  match a with
  | ⟨0, _⟩ => show win1_2.index t (0 : Fin 2) * 200 + 1 * p.val = t.val * 200 + p.val; omega
  | ⟨1, _⟩ => show win1_2.index t (1 : Fin 2) * 128 + 1 * q.val = q.val; omega

/-- The weights' block is the whole weight matrix. -/
theorem wtBlock_apply (c : Dev nD) (t : Fin cfg1.N) (k : Fin 128) (q : Fin 128) :
    iblk1 (F := Ideal) V c 3 t (ix2 k q) = V c (Pipeline.arrRef spec1 3) (ix2 k q) := by
  show V c (Pipeline.arrRef spec1 3) (((cfg1.win 3).blk t).view.emb (ix2 k q)) = _
  refine congrArg _ (funext fun a => Fin.ext ?_)
  obtain ⟨-, -, -, -, -, -, e0, e1, -⟩ := blockIdx t
  match a with
  | ⟨0, _⟩ => show win1_3.index t (0 : Fin 2) * 128 + 1 * k.val = k.val; omega
  | ⟨1, _⟩ => show win1_3.index t (1 : Fin 2) * 128 + 1 * q.val = q.val; omega

/-- The self-loop weights' block is the whole weight matrix. -/
theorem swtBlock_apply (c : Dev nD) (t : Fin cfg1.N) (k : Fin 128) (q : Fin 128) :
    iblk1 (F := Ideal) V c 4 t (ix2 k q) = V c (Pipeline.arrRef spec1 4) (ix2 k q) := by
  show V c (Pipeline.arrRef spec1 4) (((cfg1.win 4).blk t).view.emb (ix2 k q)) = _
  refine congrArg _ (funext fun a => Fin.ext ?_)
  obtain ⟨-, -, -, -, -, -, -, -, e0, e1, -⟩ := blockIdx t
  match a with
  | ⟨0, _⟩ => show win1_4.index t (0 : Fin 2) * 128 + 1 * k.val = k.val; omega
  | ⟨1, _⟩ => show win1_4.index t (1 : Fin 2) * 128 + 1 * q.val = q.val; omega

/-- The bias row's block is the whole row. -/
theorem biasBlock_apply (c : Dev nD) (t : Fin cfg1.N) (q : Fin 128) :
    iblk1 (F := Ideal) V c 5 t (ix2 (0 : Fin 1) q) = V c (Pipeline.arrRef spec1 5) (ix2 (0 : Fin 1) q) := by
  show V c (Pipeline.arrRef spec1 5) (((cfg1.win 5).blk t).view.emb (ix2 (0 : Fin 1) q)) = _
  refine congrArg _ (funext fun a => Fin.ext ?_)
  obtain ⟨-, -, -, -, -, -, -, -, -, -, e0, e1, -⟩ := blockIdx t
  match a with
  | ⟨0, _⟩ => show win1_5.index t (0 : Fin 2) * 1 + 1 * (0 : Fin 1).val = (0 : Fin 1).val; omega
  | ⟨1, _⟩ => show win1_5.index t (1 : Fin 2) * 128 + 1 * q.val = q.val; omega

/-- Where the output blocks sit: entry (p, q) of the block of point `t` is entry (t·200 + p, q) of the array. -/
theorem supportOut_emb (t : Fin cfg1.N) (p : Fin 200) (q : Fin 128) :
    ((cfg1.win 6).blk t).view.emb (ix2 p q) = ix2 (blockRow t p) q := by
  refine funext fun a => Fin.ext ?_
  obtain ⟨-, -, -, -, -, -, -, -, -, -, -, -, e0, e1, -⟩ := blockIdx t
  match a with
  | ⟨0, _⟩ => show win1_6.index t (0 : Fin 2) * 200 + 1 * p.val = t.val * 200 + p.val; omega
  | ⟨1, _⟩ => show win1_6.index t (1 : Fin 2) * 128 + 1 * q.val = q.val; omega
theorem selfloopOut_emb (t : Fin cfg1.N) (p : Fin 200) (q : Fin 128) :
    ((cfg1.win 7).blk t).view.emb (ix2 p q) = ix2 (blockRow t p) q := by
  refine funext fun a => Fin.ext ?_
  obtain ⟨-, -, -, -, -, -, -, -, -, -, -, -, -, -, e0, e1⟩ := blockIdx t
  match a with
  | ⟨0, _⟩ => show win1_7.index t (0 : Fin 2) * 200 + 1 * p.val = t.val * 200 + p.val; omega
  | ⟨1, _⟩ => show win1_7.index t (1 : Fin 2) * 128 + 1 * q.val = q.val; omega

/-- The self-loop block of point `t`, entry by entry: row `t·200 + p` of `h · sw2`. -/
theorem selfloop_point (c : Dev nD) (t : Fin cfg1.N) (p : Fin 200) (q : Fin 128) :
    k1_pay3 (iblk1 (F := Ideal) V c 0 t) (iblk1 V c 1 t) (iblk1 V c 2 t) (iblk1 V c 4 t) (ix2 p q)
      = proj (hidden (V c (Pipeline.arrRef spec1 0)) (V c (Pipeline.arrRef spec1 1)) (V c (Pipeline.arrRef spec1 2)))
          (V c (Pipeline.arrRef spec1 4)) (ix2 (blockRow t p) q) :=
  selfloopBlock_eq (V c (Pipeline.arrRef spec1 0)) (V c (Pipeline.arrRef spec1 1)) (V c (Pipeline.arrRef spec1 2)) (V c (Pipeline.arrRef spec1 4))
    (iblk1 V c 0 t) (iblk1 V c 1 t) (iblk1 V c 2 t) (iblk1 V c 4 t) (blockRow t p) p
    (fun k => opBlock_apply V c t p k) (fun k q => supBlock_apply V c t k q) (fun q => selfBlock_apply V c t p q)
    (fun k q => swtBlock_apply V c t k q) q

/-- The support block of point `t`, entry by entry: row `t·200 + p` of `h · w2 + b2`. -/
theorem support_point (c : Dev nD) (t : Fin cfg1.N) (p : Fin 200) (q : Fin 128) :
    k1_pay2 (iblk1 (F := Ideal) V c 0 t) (iblk1 V c 1 t) (iblk1 V c 2 t) (iblk1 V c 3 t) (iblk1 V c 5 t) (ix2 p q)
      = projBias (hidden (V c (Pipeline.arrRef spec1 0)) (V c (Pipeline.arrRef spec1 1)) (V c (Pipeline.arrRef spec1 2)))
          (V c (Pipeline.arrRef spec1 3)) (V c (Pipeline.arrRef spec1 5)) (ix2 (blockRow t p) q) :=
  supportBlock_eq (V c (Pipeline.arrRef spec1 0)) (V c (Pipeline.arrRef spec1 1)) (V c (Pipeline.arrRef spec1 2)) (V c (Pipeline.arrRef spec1 3))
    (V c (Pipeline.arrRef spec1 5))
    (iblk1 V c 0 t) (iblk1 V c 1 t) (iblk1 V c 2 t) (iblk1 V c 3 t) (iblk1 V c 5 t) (blockRow t p) p
    (fun k => opBlock_apply V c t p k) (fun k q => supBlock_apply V c t k q) (fun q => selfBlock_apply V c t p q)
    (fun k q => wtBlock_apply V c t k q) (fun q => biasBlock_apply V c t q) q

/-- What point `t` writes back to the self-loop array is block `t` of `h · sw2`. -/
theorem selfloop_flushed (c : Dev nD) (t : Fin cfg1.N) :
    (dat1 (F := Ideal) V c).flushed 7 t = ((cfg1.win 7).blk t).view.read (Elt Ideal)
      (proj (hidden (V c (Pipeline.arrRef spec1 0)) (V c (Pipeline.arrRef spec1 1)) (V c (Pipeline.arrRef spec1 2)))
        (V c (Pipeline.arrRef spec1 4))) := by
  show (cfg1.win 7).cut (grid1.coords t) ((dat1 V c).after 7 t) = _
  rw [after1_7]
  unfold out1_7
  rw [View.canon_unit_zero zeroOff]
  simp only [View.ld_unit_zero (S := S200x10000) zeroOff, View.ld_unit_zero (S := S10000x128) zeroOff,
    View.ld_unit_zero (S := S200x128) zeroOff, View.ld_unit_zero (S := S128x128) zeroOff]
  funext j
  obtain ⟨p, q, rfl⟩ : ∃ (p : Fin 200) (q : Fin 128), j = ix2 p q := ⟨j 0, j 1, eq_ix2 j⟩
  show k1_pay3 (iblk1 V c 0 t) (iblk1 V c 1 t) (iblk1 V c 2 t) (iblk1 V c 4 t) (ix2 p q)
    = proj (hidden (V c (Pipeline.arrRef spec1 0)) (V c (Pipeline.arrRef spec1 1)) (V c (Pipeline.arrRef spec1 2)))
        (V c (Pipeline.arrRef spec1 4)) (((cfg1.win 7).blk t).view.emb (ix2 p q))
  rw [selfloopOut_emb t p q]
  exact selfloop_point V c t p q

/-- What point `t` writes back to the support array is block `t` of `h · w2 + b2`. -/
theorem support_flushed (c : Dev nD) (t : Fin cfg1.N) :
    (dat1 (F := Ideal) V c).flushed 6 t = ((cfg1.win 6).blk t).view.read (Elt Ideal)
      (projBias (hidden (V c (Pipeline.arrRef spec1 0)) (V c (Pipeline.arrRef spec1 1)) (V c (Pipeline.arrRef spec1 2)))
        (V c (Pipeline.arrRef spec1 3)) (V c (Pipeline.arrRef spec1 5))) := by
  show (cfg1.win 6).cut (grid1.coords t) ((dat1 V c).after 6 t) = _
  rw [after1_6]
  unfold out1_6
  rw [View.canon_unit_zero zeroOff]
  simp only [View.ld_unit_zero (S := S200x10000) zeroOff, View.ld_unit_zero (S := S10000x128) zeroOff,
    View.ld_unit_zero (S := S200x128) zeroOff, View.ld_unit_zero (S := S128x128) zeroOff, View.ld_unit_zero (S := S1x128) zeroOff]
  funext j
  obtain ⟨p, q, rfl⟩ : ∃ (p : Fin 200) (q : Fin 128), j = ix2 p q := ⟨j 0, j 1, eq_ix2 j⟩
  show k1_pay2 (iblk1 V c 0 t) (iblk1 V c 1 t) (iblk1 V c 2 t) (iblk1 V c 3 t) (iblk1 V c 5 t) (ix2 p q)
    = projBias (hidden (V c (Pipeline.arrRef spec1 0)) (V c (Pipeline.arrRef spec1 1)) (V c (Pipeline.arrRef spec1 2)))
        (V c (Pipeline.arrRef spec1 3)) (V c (Pipeline.arrRef spec1 5)) (((cfg1.win 6).blk t).view.emb (ix2 p q))
  rw [supportOut_emb t p q]
  exact support_point V c t p q

/-- An index of the self-loop array is in point `t`'s block iff each coordinate is in the block's range on its axis. -/
theorem selfloop_mem_blk (t : Fin cfg1.N) (i : S10000x128.Idx) :
    i ∈ ((cfg1.win 7).blk t).view.set ↔ ∀ a : Fin 2, win1_7.index t a * S200x128.size a ≤ (i a).val ∧ (i a).val < win1_7.index t a * S200x128.size a + S200x128.size a := by
  show i ∈ ((View.whole main_call0_v3_1).slice (win1_7.rect t)).set ↔ _
  rw [View.set_slice_whole, Rect.mem_set_unit]
  exact Iff.rfl

/-- The same for the support array. -/
theorem support_mem_blk (t : Fin cfg1.N) (i : S10000x128.Idx) :
    i ∈ ((cfg1.win 6).blk t).view.set ↔ ∀ a : Fin 2, win1_6.index t a * S200x128.size a ≤ (i a).val ∧ (i a).val < win1_6.index t a * S200x128.size a + S200x128.size a := by
  show i ∈ ((View.whole main_call0_v3_0).slice (win1_6.rect t)).set ↔ _
  rw [View.set_slice_whole, Rect.mem_set_unit]
  exact Iff.rfl

/-- Row `r` lies in the block of point `r / 200`: the 50 blocks of 200 rows cover the 10000 rows. -/
theorem selfloop_cover (i : S10000x128.Idx) :
    ∃ t : Fin cfg1.N, (cfg1.win 7).flush t = true ∧ i ∈ ((cfg1.win 7).blk t).view.set := by
  have hi0 : (i 0).val < 10000 := (i 0).isLt
  have hi1 : (i 1).val < 128 := (i 1).isLt
  obtain ⟨t, ht⟩ : ∃ t : Fin cfg1.N, t.val = (i 0).val / 200 :=
    ⟨⟨(i 0).val / 200, lt_of_lt_of_eq (by omega) N_1.symm⟩, rfl⟩
  refine ⟨t, flush1_7 t, ?_⟩
  rw [selfloop_mem_blk]
  obtain ⟨-, -, -, -, -, -, -, -, -, -, -, -, -, -, e0, e1⟩ := blockIdx t
  intro a
  match a with
  | ⟨0, _⟩ => show win1_7.index t (0 : Fin 2) * 200 ≤ (i 0).val ∧ (i 0).val < win1_7.index t (0 : Fin 2) * 200 + 200; omega
  | ⟨1, _⟩ => show win1_7.index t (1 : Fin 2) * 128 ≤ (i 1).val ∧ (i 1).val < win1_7.index t (1 : Fin 2) * 128 + 128; omega

theorem support_cover (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ : ∃ t : Fin cfg1.N, t.val = (i 0).val / 200 :=
    ⟨⟨(i 0).val / 200, lt_of_lt_of_eq (by omega) N_1.symm⟩, rfl⟩
  refine ⟨t, flush1_6 t, ?_⟩
  rw [support_mem_blk]
  obtain ⟨-, -, -, -, -, -, -, -, -, -, -, -, e0, e1, -⟩ := blockIdx t
  intro a
  match a with
  | ⟨0, _⟩ => show win1_6.index t (0 : Fin 2) * 200 ≤ (i 0).val ∧ (i 0).val < win1_6.index t (0 : Fin 2) * 200 + 200; omega
  | ⟨1, _⟩ => show win1_6.index t (1 : Fin 2) * 128 ≤ (i 1).val ∧ (i 1).val < win1_6.index t (1 : Fin 2) * 128 + 128; omega

end Second

/-- After the second launch the support array is `h · w2 + b2` with `h = max (g · s1 + p1) 0`. -/
theorem support2 (c : Dev nD) :
    (dat1 (F := Ideal) V c).arrAt 6 cfg1.N
      = projBias (hidden (V c (Pipeline.arrRef spec1 0)) (V c (Pipeline.arrRef spec1 1)) (V c (Pipeline.arrRef spec1 2)))
          (V c (Pipeline.arrRef spec1 3)) (V c (Pipeline.arrRef spec1 5)) :=
  (dat1 V c).arrAt_eq_of_cover 6 _ (fun t _ => Second.support_flushed V c t) Second.support_cover

/-- After the second launch the self-loop array is `h · sw2`. -/
theorem selfloop2 (c : Dev nD) :
    (dat1 (F := Ideal) V c).arrAt 7 cfg1.N
      = proj (hidden (V c (Pipeline.arrRef spec1 0)) (V c (Pipeline.arrRef spec1 1)) (V c (Pipeline.arrRef spec1 2)))
          (V c (Pipeline.arrRef spec1 4)) :=
  (dat1 V c).arrAt_eq_of_cover 7 _ (fun t _ => Second.selfloop_flushed V c t) Second.selfloop_cover

end Cert.KernelIdeal.Stage

end
-- ==== Proof.Region2.lean ====
/-
  Third launch (grid of 50 row blocks of 200): from the operator g, the second support s2 and self-loop term p2 it
  leaves the result  g · s2 + p2.
-/
import proofs.«116259_g5179730559512_cont_sun_m_342_2_alg».proof.Proof.Gen.KernelIdeal.Frame
import proofs.«116259_g5179730559512_cont_sun_m_342_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stage

open Cert.KernelIdeal Cert.KernelIdeal.Gen Cert.HConv
open Idealize.ShloMosaic Idealize.ShloMosaic.TcCoe Idealize.ShloMosaic.ValueIdx Idealize.SL.Sem
open Idealize.ShloMosaic.Pipeline (Dat Cfg Window)

-- the core's buffer contents when the region is entered: any contents at all
variable (V : (c : Dev nD) → (b : Ref sig .tc) → Buf (Elt Ideal) ((c : Thread nD τ).loc b))

namespace Third

/-! ### The product of a 200-row block of the operator with the support, entry by entry -/

/-- The row of the left factor is the row of the result. -/
theorem lhsG_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The column of the left factor is the summation index. -/
theorem lhsG_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- The row of the right factor is the summation index. -/
theorem rhsG_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- The column of the right factor is the column of the result. -/
theorem rhsG_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The block product into a zero accumulator is the plain sum over the 10000 contracted coordinates. -/
theorem blockProd_apply (a : FVec Ideal S200x10000 .bf16) (s : FVec Ideal S10000x128 .bf16) (j : S200x128.Idx) :
    matmul dot_S200x10000_S10000x128_S200x128_1_0_0_1_n_n none a s (constant S200x128 .f32 0x00000000#32) j
      = ∑ k : Fin 10000, a (ix2 (fst2 j) k) * s (ix2 k (snd2 j)) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx j ((contrEquiv1 dot_S200x10000_S10000x128_S200x128_1_0_0_1_n_n 10000 rfl rfl).symm k) = ix2 (fst2 j) k := funext fun a => Fin.ext (by
    match a with
    | ⟨0, _⟩ => exact lhsG_0 _ _
    | ⟨1, _⟩ => exact (lhsG_1 _ _).trans hk)
  have er : dot_S200x10000_S10000x128_S200x128_1_0_0_1_n_n.rhsIdx j ((contrEquiv1 dot_S200x10000_S10000x128_S200x128_1_0_0_1_n_n 10000 rfl rfl).symm k) = ix2 k (snd2 j) := funext fun a => Fin.ext (by
    match a with
    | ⟨0, _⟩ => exact (rhsG_0 _ _).trans hk
    | ⟨1, _⟩ => exact rhsG_1 _ _)
  rw [el, er]

/-- What the body stores, entry by entry: the block row of the operator against the support, plus the self-loop block. -/
theorem stored_apply (x0 : Vec Ideal S200x10000 .f32) (x1 : Vec Ideal S10000x128 .bf16) (x2 : Vec Ideal S200x128 .f32) :
    k2_pay1 x0 x1 x2 = fun j => (∑ k : Fin 10000, x0 (ix2 (fst2 j) k) * x1 (ix2 k (snd2 j))) + x2 j := by
  funext j
  unfold k2_pay1
  simp only [shapeCast_self]
  rw [addf_apply, blockProd_apply]
  rfl

/-- Row `a` of the `r`-th block of 200 rows. -/
abbrev blockRow (r : Fin 50) (a : Fin 200) : Fin 10000 :=
  ⟨r.val * 200 + a.val, by have := r.isLt; have := a.isLt; omega⟩

/-- When the three blocks are rows `200 r … 200 r + 199` of the operator, the whole support and the same rows of the
    self-loop term, the stored block is those rows of `g · s + p`. -/
theorem stored_rows (x0 : Vec Ideal S200x10000 .f32) (x1 : Vec Ideal S10000x128 .bf16) (x2 : Vec Ideal S200x128 .f32)
    (g : SA.Idx → EReal) (s p : SX.Idx → EReal) (r : Fin 50)
    (h0 : ∀ (a : Fin 200) (k : Fin 10000), x0 (ix2 a k) = g (ix2 (blockRow r a) k))
    (h1 : ∀ (k : Fin 10000) (q : Fin 128), x1 (ix2 k q) = s (ix2 k q))
    (h2 : ∀ (a : Fin 200) (q : Fin 128), x2 (ix2 a q) = p (ix2 (blockRow r a) q))
    (j : S200x128.Idx) :
    k2_pay1 x0 x1 x2 j = agg g s p (ix2 (blockRow r (fst2 j)) (snd2 j)) := by
  rw [stored_apply]
  show (∑ k : Fin 10000, x0 (ix2 (fst2 j) k) * x1 (ix2 k (snd2 j))) + x2 j
    = (∑ k : Fin 10000, g (ix2 (blockRow r (fst2 j)) k) * s (ix2 k (snd2 j))) + p (ix2 (blockRow r (fst2 j)) (snd2 j))
  refine congrArg₂ (· + ·) (Finset.sum_congr rfl fun k _ => ?_) ?_
  · rw [h0, h1]
  · exact (congrArg x2 (eq_ix2 j)).trans (h2 (fst2 j) (snd2 j))

/-! ### From the blocks to the array -/

/-- Both offsets of a whole-block access are zero. -/
theorem zero_offsets : (![0, 0] : Fin 2 → Nat) = fun _ => 0 := funext fun a => by fin_cases a <;> rfl

/-- The windows' block indices over the grid: the operator's, the self-loop term's and the result's block sit at row block
    `t`, column block 0; the support's block is the whole array. -/
theorem blockIndices : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `g · s + p` of the arrays as the launch finds them. -/
theorem writeBack_eq (c : Dev nD) (t : Fin cfg2.N) :
    (dat2 (F := Ideal) V c).flushed 3 t = ((cfg2.win 3).blk t).view.read (Elt Ideal)
      (agg (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero zero_offsets]
  simp only [View.ld_unit_zero (S := S200x10000) zero_offsets, View.ld_unit_zero (S := S10000x128) zero_offsets, View.ld_unit_zero (S := S200x128) zero_offsets]
  obtain ⟨e30, e31, e00, e01, e10, e11, e20, e21⟩ := blockIndices t
  have ht : t.val < 50 := lt_of_lt_of_eq t.isLt N_2
  funext j
  show k2_pay1 (iblk2 V c 0 t) (iblk2 V c 1 t) (iblk2 V c 2 t) j
    = agg (V c (Pipeline.arrRef spec2 0)) (V c (Pipeline.arrRef spec2 1)) (V c (Pipeline.arrRef spec2 2)) (((cfg2.win 3).blk t).view.emb j)
  refine (stored_rows (iblk2 V c 0 t) (iblk2 V c 1 t) (iblk2 V c 2 t) (V c (Pipeline.arrRef spec2 0)) (V c (Pipeline.arrRef spec2 1))
    (V c (Pipeline.arrRef spec2 2)) ⟨t.val, ht⟩ ?_ ?_ ?_ j).trans ?_
  · intro a k
    show V c (Pipeline.arrRef spec2 0) (((cfg2.win 0).blk t).view.emb (ix2 a k)) = V c (Pipeline.arrRef spec2 0) (ix2 (blockRow ⟨t.val, ht⟩ a) k)
    refine congrArg (V c (Pipeline.arrRef spec2 0)) (funext fun d => Fin.ext ?_)
    match d with
    | ⟨0, _⟩ => show win2_0.index t (0 : Fin 2) * 200 + 1 * a.val = t.val * 200 + a.val; omega
    | ⟨1, _⟩ => show win2_0.index t (1 : Fin 2) * 10000 + 1 * k.val = k.val; omega
  · intro k q
    show V c (Pipeline.arrRef spec2 1) (((cfg2.win 1).blk t).view.emb (ix2 k q)) = V c (Pipeline.arrRef spec2 1) (ix2 k q)
    refine congrArg (V c (Pipeline.arrRef spec2 1)) (funext fun d => Fin.ext ?_)
    match d with
    | ⟨0, _⟩ => show win2_1.index t (0 : Fin 2) * 10000 + 1 * k.val = k.val; omega
    | ⟨1, _⟩ => show win2_1.index t (1 : Fin 2) * 128 + 1 * q.val = q.val; omega
  · intro a q
    show V c (Pipeline.arrRef spec2 2) (((cfg2.win 2).blk t).view.emb (ix2 a q)) = V c (Pipeline.arrRef spec2 2) (ix2 (blockRow ⟨t.val, ht⟩ a) q)
    refine congrArg (V c (Pipeline.arrRef spec2 2)) (funext fun d => Fin.ext ?_)
    match d with
    | ⟨0, _⟩ => show win2_2.index t (0 : Fin 2) * 200 + 1 * a.val = t.val * 200 + a.val; omega
    | ⟨1, _⟩ => show win2_2.index t (1 : Fin 2) * 128 + 1 * q.val = q.val; omega
  · refine congrArg (agg (V c (Pipeline.arrRef spec2 0)) (V c (Pipeline.arrRef spec2 1)) (V c (Pipeline.arrRef spec2 2))) (funext fun d => Fin.ext ?_)
    match d with
    | ⟨0, _⟩ => show t.val * 200 + (j 0).val = win2_3.index t (0 : Fin 2) * 200 + 1 * (j 0).val; omega
    | ⟨1, _⟩ => show (j 1).val = win2_3.index t (1 : Fin 2) * 128 + 1 * (j 1).val; omega

/-- An index of the result array is in point `t`'s block iff each coordinate is in the block's range on its axis. -/
theorem mem_block_iff (t : Fin cfg2.N) (i : SX.Idx) :
    i ∈ ((cfg2.win 3).blk t).view.set ↔ ∀ a : Fin 2, win2_3.index t a * S200x128.size a ≤ (i a).val ∧ (i a).val < win2_3.index t a * S200x128.size a + S200x128.size a := by
  show i ∈ ((View.whole main_v0).slice (win2_3.rect t)).set ↔ _
  rw [View.set_slice_whole, Rect.mem_set_unit]
  exact Iff.rfl

/-- Row `r` of the result lies in the block of point `r / 200`, and every point writes back. -/
theorem covered (i : SX.Idx) : ∃ t : Fin cfg2.N, (cfg2.win 3).flush t = true ∧ i ∈ ((cfg2.win 3).blk t).view.set := by
  have hi0 : (i 0).val < 10000 := (i 0).isLt
  have hi1 : (i 1).val < 128 := (i 1).isLt
  obtain ⟨t, ht⟩ : ∃ t : Fin cfg2.N, t.val = (i 0).val / 200 :=
    ⟨⟨(i 0).val / 200, lt_of_lt_of_eq (show (i 0).val / 200 < 50 by omega) N_2.symm⟩, rfl⟩
  obtain ⟨e30, e31, -⟩ := blockIndices t
  refine ⟨t, flush2_3 t, ?_⟩
  rw [mem_block_iff]
  intro a
  match a with
  | ⟨0, _⟩ => show win2_3.index t (0 : Fin 2) * 200 ≤ (i 0).val ∧ (i 0).val < win2_3.index t (0 : Fin 2) * 200 + 200; omega
  | ⟨1, _⟩ => show win2_3.index t (1 : Fin 2) * 128 ≤ (i 1).val ∧ (i 1).val < win2_3.index t (1 : Fin 2) * 128 + 128; omega

end Third

/-- After the third launch the result array is `g · s2 + p2`. -/
theorem output (c : Dev nD) :
    (dat2 (F := Ideal) V c).arrAt 3 cfg2.N
      = agg (V c (Pipeline.arrRef spec2 0)) (V c (Pipeline.arrRef spec2 1)) (V c (Pipeline.arrRef spec2 2)) :=
  (dat2 (F := Ideal) V c).arrAt_eq_of_cover 3 _ (fun t _ => Third.writeBack_eq V c t) Third.covered

end Cert.KernelIdeal.Stage

end
-- ==== Proof.KernelValue.lean ====
/-
  The three launches composed. Each launch leaves its output arrays as one function of the arrays it found (the three
  region modules); between launches nothing else changes; before the first, the two bias vectors are laid out as rows.
  Read back from the last boundary to the launch memory, the result array is the two-layer convolution of the eight
  arguments.
-/
import proofs.«116259_g5179730559512_cont_sun_m_342_2_alg».proof.Proof.Region0
import proofs.«116259_g5179730559512_cont_sun_m_342_2_alg».proof.Proof.Region1
import proofs.«116259_g5179730559512_cont_sun_m_342_2_alg».proof.Proof.Region2
import Idealize.ShloMosaic.Lib.StableHlo.Run

set_option maxRecDepth 16384

noncomputable section

open scoped BigOperators

namespace Cert.KernelIdeal.Stage

open Cert.KernelIdeal Cert.KernelIdeal.Gen Cert.HConv
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Before the first launch: the arguments as launched, the biases as rows -/

/-- A buffer the two row layouts do not write holds at the first launch what it held at the start. -/
macro "host_kept" : tactic =>
  `(tactic| (refine StableHlo.after_of_forall_not_mem _ _ (List.forall_iff_forall_mem.mp ?_)
             simp only [hostOps0, List.flatten_cons, List.flatten_nil, List.append_nil, List.cons_append,
               List.nil_append, List.Forall, StableHlo.reshape_writes, Finset.mem_singleton]
             repeat' apply And.intro
             all_goals exact StableHlo.devRef_ne_of_ne (by decide)))

theorem entry_x (c : Dev nD) : V1 m ρ c main_arg0 = m ((c : Thread nD τ).loc main_arg0) := by host_kept
theorem entry_g (c : Dev nD) : V1 m ρ c main_arg1 = m ((c : Thread nD τ).loc main_arg1) := by host_kept
theorem entry_w1 (c : Dev nD) : V1 m ρ c main_arg2 = m ((c : Thread nD τ).loc main_arg2) := by host_kept
theorem entry_sw1 (c : Dev nD) : V1 m ρ c main_arg3 = m ((c : Thread nD τ).loc main_arg3) := by host_kept
theorem entry_w2 (c : Dev nD) : V1 m ρ c main_arg5 = m ((c : Thread nD τ).loc main_arg5) := by host_kept
theorem entry_sw2 (c : Dev nD) : V1 m ρ c main_arg6 = m ((c : Thread nD τ).loc main_arg6) := by host_kept

/-- A vector of 128 reshaped to one row of 128 is that vector along the row. -/
theorem row_of_reshape (b : SBias.Idx → EReal) (h : SBias.ShapeCasts SRow) :
    shapeCast SRow b h = biasRow b := by
  funext j
  rw [shapeCast_addUnit_apply]
  unfold biasRow
  refine congrArg b (funext fun a => ?_)
  match a with
  | ⟨0, _⟩ => rfl

/-- The first bias reaches the first launch as a row. -/
theorem entry_b1 (c : Dev nD) : V1 m ρ c main_call0_v0 = biasRow (m ((c : Thread nD τ).loc main_arg4)) := by
  have e : (V1 m ρ c main_call0_v0 : S1x128.Idx → EReal)
      = shapeCast S1x128 (m ((c : Thread nD τ).loc main_arg4)) shapeCasts_S128_S1x128 := by
    dsimp only [V1, W1, hostOps0]; after_results; rfl
  exact e.trans (row_of_reshape _ _)

/-- The second bias reaches the launches as a row. -/
theorem entry_b2 (c : Dev nD) : V1 m ρ c main_call0_v1 = biasRow (m ((c : Thread nD τ).loc main_arg7)) := by
  have e : (V1 m ρ c main_call0_v1 : S1x128.Idx → EReal)
      = shapeCast S1x128 (m ((c : Thread nD τ).loc main_arg7)) shapeCasts_S128_S1x128 := by
    dsimp only [V1, W1, hostOps0]; after_results; rfl
  exact e.trans (row_of_reshape _ _)

/-! ## After the first launch -/

/-- The first layer's support. -/
theorem mid_s1 (c : Dev nD) :
    V2 m ρ c main_call0_v2_0 = projBias (m ((c : Thread nD τ).loc main_arg0)) (m ((c : Thread nD τ).loc main_arg2)) (biasRow (m ((c : Thread nD τ).loc main_arg4))) := by
  have h := (W2_arr m ρ c 4).trans (support1 (V1 m ρ) c)
  have e0 : V1 m ρ c (Pipeline.arrRef spec0 0) = m ((c : Thread nD τ).loc main_arg0) := entry_x m ρ c
  have e1 : V1 m ρ c (Pipeline.arrRef spec0 1) = m ((c : Thread nD τ).loc main_arg2) := entry_w1 m ρ c
  have e3 : V1 m ρ c (Pipeline.arrRef spec0 3) = biasRow (m ((c : Thread nD τ).loc main_arg4)) := entry_b1 m ρ c
  rw [e0, e1, e3] at h
  exact h

/-- The first layer's self-loop term. -/
theorem mid_p1 (c : Dev nD) :
    V2 m ρ c main_call0_v2_1 = proj (m ((c : Thread nD τ).loc main_arg0)) (m ((c : Thread nD τ).loc main_arg3)) := by
  have h := (W2_arr m ρ c 5).trans (selfloop1 (V1 m ρ) c)
  have e0 : V1 m ρ c (Pipeline.arrRef spec0 0) = m ((c : Thread nD τ).loc main_arg0) := entry_x m ρ c
  have e2 : V1 m ρ c (Pipeline.arrRef spec0 2) = m ((c : Thread nD τ).loc main_arg3) := entry_sw1 m ρ c
  rw [e0, e2] at h
  exact h

/-- What the first launch does not write it leaves. -/
theorem mid_g (c : Dev nD) : V2 m ρ c main_arg1 = m ((c : Thread nD τ).loc main_arg1) :=
  (W2_of_ne m ρ c main_arg1 (by decide)).trans (entry_g m ρ c)
theorem mid_w2 (c : Dev nD) : V2 m ρ c main_arg5 = m ((c : Thread nD τ).loc main_arg5) :=
  (W2_of_ne m ρ c main_arg5 (by decide)).trans (entry_w2 m ρ c)
theorem mid_sw2 (c : Dev nD) : V2 m ρ c main_arg6 = m ((c : Thread nD τ).loc main_arg6) :=
  (W2_of_ne m ρ c main_arg6 (by decide)).trans (entry_sw2 m ρ c)
theorem mid_b2 (c : Dev nD) : V2 m ρ c main_call0_v1 = biasRow (m ((c : Thread nD τ).loc main_arg7)) :=
  (W2_of_ne m ρ c main_call0_v1 (by decide)).trans (entry_b2 m ρ c)

/-! ## After the second launch -/

/-- The hidden layer, which the second launch never stores. -/
abbrev hid (c : Dev nD) : SX.Idx → EReal :=
  hidden (m ((c : Thread nD τ).loc main_arg1)) (projBias (m ((c : Thread nD τ).loc main_arg0)) (m ((c : Thread nD τ).loc main_arg2)) (biasRow (m ((c : Thread nD τ).loc main_arg4))))
    (proj (m ((c : Thread nD τ).loc main_arg0)) (m ((c : Thread nD τ).loc main_arg3)))

/-- The second layer's support. -/
theorem late_s2 (c : Dev nD) :
    V3 m ρ c main_call0_v3_0 = projBias (hid m c) (m ((c : Thread nD τ).loc main_arg5)) (biasRow (m ((c : Thread nD τ).loc main_arg7))) := by
  have h := (W3_arr m ρ c 6).trans (support2 (V2 m ρ) c)
  have e0 : V2 m ρ c (Pipeline.arrRef spec1 0) = m ((c : Thread nD τ).loc main_arg1) := mid_g m ρ c
  have e1 : V2 m ρ c (Pipeline.arrRef spec1 1) = _ := mid_s1 m ρ c
  have e2 : V2 m ρ c (Pipeline.arrRef spec1 2) = _ := mid_p1 m ρ c
  have e3 : V2 m ρ c (Pipeline.arrRef spec1 3) = m ((c : Thread nD τ).loc main_arg5) := mid_w2 m ρ c
  have e5 : V2 m ρ c (Pipeline.arrRef spec1 5) = _ := mid_b2 m ρ c
  rw [e0, e1, e2, e3, e5] at h
  exact h

/-- The second layer's self-loop term. -/
theorem late_p2 (c : Dev nD) :
    V3 m ρ c main_call0_v3_1 = proj (hid m c) (m ((c : Thread nD τ).loc main_arg6)) := by
  have h := (W3_arr m ρ c 7).trans (selfloop2 (V2 m ρ) c)
  have e0 : V2 m ρ c (Pipeline.arrRef spec1 0) = m ((c : Thread nD τ).loc main_arg1) := mid_g m ρ c
  have e1 : V2 m ρ c (Pipeline.arrRef spec1 1) = _ := mid_s1 m ρ c
  have e2 : V2 m ρ c (Pipeline.arrRef spec1 2) = _ := mid_p1 m ρ c
  have e4 : V2 m ρ c (Pipeline.arrRef spec1 4) = m ((c : Thread nD τ).loc main_arg6) := mid_sw2 m ρ c
  rw [e0, e1, e2, e4] at h
  exact h

/-- The operator is an input of the second launch too: it passes through it unchanged. -/
theorem late_g (c : Dev nD) : V3 m ρ c main_arg1 = m ((c : Thread nD τ).loc main_arg1) :=
  ((W3_arr m ρ c 0).trans (((dat1 (V2 m ρ) c).arrAt_in 0 rfl _).trans (A_eq1 (V2 m ρ) c 0))).trans (mid_g m ρ c)

/-! ## After the third launch -/

/-- THE RESULT ARRAY at the last boundary is the two-layer convolution of the arguments as launched. -/
theorem result_value (c : Dev nD) :
    W4 m ρ c (Proc.devRef .tc main_v0)
      = conv2 (m ((c : Thread nD τ).loc main_arg0)) (m ((c : Thread nD τ).loc main_arg1)) (m ((c : Thread nD τ).loc main_arg2)) (m ((c : Thread nD τ).loc main_arg3)) (biasRow (m ((c : Thread nD τ).loc main_arg4)))
          (m ((c : Thread nD τ).loc main_arg5)) (m ((c : Thread nD τ).loc main_arg6)) (biasRow (m ((c : Thread nD τ).loc main_arg7))) := by
  have h := (W4_arr m ρ c 3).trans (output (V3 m ρ) c)
  have e0 : V3 m ρ c (Pipeline.arrRef spec2 0) = m ((c : Thread nD τ).loc main_arg1) := late_g m ρ c
  have e1 : V3 m ρ c (Pipeline.arrRef spec2 1) = _ := late_s2 m ρ c
  have e2 : V3 m ρ c (Pipeline.arrRef spec2 2) = _ := late_p2 m ρ c
  rw [e0, e1, e2] at h
  exact h

end Cert.KernelIdeal.Stage

end
-- ==== Proof.RefValue.lean ====
/-
  The reference computes the same two layers with whole-array products on the host; read one operation at a time,
  its result is the convolution of the specification.
-/
import proofs.«116259_g5179730559512_cont_sun_m_342_2_alg».proof.Proof.Gen.ReferenceIdeal.Run
import proofs.«116259_g5179730559512_cont_sun_m_342_2_alg».proof.Proof.Gen.ReferenceIdeal.Read
import proofs.«116259_g5179730559512_cont_sun_m_342_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.HConv
open Idealize.ShloMosaic Idealize.ShloMosaic.ValueIdx

/-! ## Where a product reads its operands

  Each whole-array product reads its left operand at (row of the result, contracted coordinate) and its right
  operand at (contracted coordinate, column of the result). -/

theorem lidx_v0 (i : SX.Idx) (k : Fin 128) : lidx_main_v0 i k = ix2 (fst2 i) k :=
  funext fun a => by match a with | ⟨0, _⟩ => rfl | ⟨1, _⟩ => rfl
theorem ridx_v0 (i : SX.Idx) (k : Fin 128) : ridx_main_v0 i k = ix2 k (snd2 i) :=
  funext fun a => by match a with | ⟨0, _⟩ => rfl | ⟨1, _⟩ => rfl
theorem lidx_v5 (i : SX.Idx) (k : Fin 128) : lidx_main_v5 i k = ix2 (fst2 i) k :=
  funext fun a => by match a with | ⟨0, _⟩ => rfl | ⟨1, _⟩ => rfl
theorem ridx_v5 (i : SX.Idx) (k : Fin 128) : ridx_main_v5 i k = ix2 k (snd2 i) :=
  funext fun a => by match a with | ⟨0, _⟩ => rfl | ⟨1, _⟩ => rfl
theorem lidx_v8 (i : SX.Idx) (k : Fin 128) : lidx_main_v8 i k = ix2 (fst2 i) k :=
  funext fun a => by match a with | ⟨0, _⟩ => rfl | ⟨1, _⟩ => rfl
theorem ridx_v8 (i : SX.Idx) (k : Fin 128) : ridx_main_v8 i k = ix2 k (snd2 i) :=
  funext fun a => by match a with | ⟨0, _⟩ => rfl | ⟨1, _⟩ => rfl
theorem lidx_v13 (i : SX.Idx) (k : Fin 128) : lidx_main_v13 i k = ix2 (fst2 i) k :=
  funext fun a => by match a with | ⟨0, _⟩ => rfl | ⟨1, _⟩ => rfl
theorem ridx_v13 (i : SX.Idx) (k : Fin 128) : ridx_main_v13 i k = ix2 k (snd2 i) :=
  funext fun a => by match a with | ⟨0, _⟩ => rfl | ⟨1, _⟩ => rfl
theorem lidx_v4 (i : SX.Idx) (k : Fin 10000) : lidx_main_v4 i k = ix2 (fst2 i) k :=
  funext fun a => by match a with | ⟨0, _⟩ => rfl | ⟨1, _⟩ => rfl
theorem ridx_v4 (i : SX.Idx) (k : Fin 10000) : ridx_main_v4 i k = ix2 k (snd2 i) :=
  funext fun a => by match a with | ⟨0, _⟩ => rfl | ⟨1, _⟩ => rfl
theorem lidx_v12 (i : SX.Idx) (k : Fin 10000) : lidx_main_v12 i k = ix2 (fst2 i) k :=
  funext fun a => by match a with | ⟨0, _⟩ => rfl | ⟨1, _⟩ => rfl
theorem ridx_v12 (i : SX.Idx) (k : Fin 10000) : ridx_main_v12 i k = ix2 k (snd2 i) :=
  funext fun a => by match a with | ⟨0, _⟩ => rfl | ⟨1, _⟩ => rfl

/-- A bias spread over the rows reads the row layout at (0, column). -/
theorem row_v2 (i : SX.Idx) : idx_main_v2 i = ix2 (0 : Fin 1) (snd2 i) :=
  funext fun a => by match a with | ⟨0, _⟩ => rfl | ⟨1, _⟩ => rfl
theorem row_v10 (i : SX.Idx) : idx_main_v10 i = ix2 (0 : Fin 1) (snd2 i) :=
  funext fun a => by match a with | ⟨0, _⟩ => rfl | ⟨1, _⟩ => rfl
/-- The row layout of a bias reads the vector at its column. -/
theorem vec_v1 (j : SRow.Idx) : idx_main_v1 j = ix1 (snd2 j) :=
  funext fun a => by match a with | ⟨0, _⟩ => rfl
theorem vec_v9 (j : SRow.Idx) : idx_main_v9 j = ix1 (snd2 j) :=
  funext fun a => by match a with | ⟨0, _⟩ => rfl

/-! ## The first layer -/

/-- x · W₁. -/
theorem v0_eq (x0 : SX.Idx → EReal) (x2 : SWt.Idx → EReal) : val_main_v0 (F := Ideal) x0 x2 = proj x0 x2 := by
  funext i
  rw [val_main_v0_apply]
  show _ = ∑ k : Fin 128, x0 (ix2 (fst2 i) k) * x2 (ix2 k (snd2 i))
  exact Finset.sum_congr rfl fun k _ => by rw [lidx_v0, ridx_v0]

/-- The self-loop term x · SW₁. -/
theorem v5_eq (x0 : SX.Idx → EReal) (x3 : SWt.Idx → EReal) : val_main_v5 (F := Ideal) x0 x3 = proj x0 x3 := by
  funext i
  rw [val_main_v5_apply]
  show _ = ∑ k : Fin 128, x0 (ix2 (fst2 i) k) * x3 (ix2 k (snd2 i))
  exact Finset.sum_congr rfl fun k _ => by rw [lidx_v5, ridx_v5]

/-- The first bias, spread over all rows, is the bias row read at (0, column). -/
theorem v2_eq (x4 : SBias.Idx → EReal) (i : SX.Idx) :
    val_main_v2 (F := Ideal) x4 i = biasRow x4 (ix2 (0 : Fin 1) (snd2 i)) := by
  rw [val_main_v2_apply, val_main_v1_apply, row_v2, vec_v1]
  rfl

/-- The first support x · W₁ + b₁. -/
theorem v3_eq (x0 : SX.Idx → EReal) (x2 : SWt.Idx → EReal) (x4 : SBias.Idx → EReal) :
    val_main_v3 (F := Ideal) x0 x2 x4 = projBias x0 x2 (biasRow x4) := by
  funext i
  rw [val_main_v3_apply, v0_eq, v2_eq]
  rfl

/-- The operator applied to the first support, as a sum over the nodes. -/
theorem v4_eq (x0 : SX.Idx → EReal) (x1 : SA.Idx → EReal) (x2 : SWt.Idx → EReal) (x4 : SBias.Idx → EReal) (i : SX.Idx) :
    val_main_v4 (F := Ideal) x0 x1 x2 x4 i
      = ∑ k : Fin 10000, x1 (ix2 (fst2 i) k) * val_main_v3 (F := Ideal) x0 x2 x4 (ix2 k (snd2 i)) := by
  rw [val_main_v4_apply]
  exact Finset.sum_congr rfl fun k _ => by rw [lidx_v4, ridx_v4]

/-- The first aggregate g · S₁ + P₁. -/
theorem v6_eq (x0 : SX.Idx → EReal) (x1 : SA.Idx → EReal) (x2 x3 : SWt.Idx → EReal) (x4 : SBias.Idx → EReal) :
    val_main_v6 (F := Ideal) x0 x1 x2 x3 x4
      = agg x1 (val_main_v3 (F := Ideal) x0 x2 x4) (val_main_v5 (F := Ideal) x0 x3) := by
  funext i
  rw [val_main_v6_apply, v4_eq]
  rfl

/-- The hidden layer: the first aggregate clipped below at the float zero. -/
theorem v7_eq (x0 : SX.Idx → EReal) (x1 : SA.Idx → EReal) (x2 x3 : SWt.Idx → EReal) (x4 : SBias.Idx → EReal) :
    val_main_v7 (F := Ideal) x0 x1 x2 x3 x4
      = hidden x1 (projBias x0 x2 (biasRow x4)) (proj x0 x3) := by
  funext i
  rw [val_main_v7_apply, val_main_call0_v0_apply, val_main_call0_cst_apply, v6_eq, v3_eq, v5_eq]
  rfl

/-! ## The second layer, over the hidden layer as a variable -/

/-- H · W₂. -/
theorem v8_eq (x0 : SX.Idx → EReal) (x1 : SA.Idx → EReal) (x2 x3 : SWt.Idx → EReal) (x4 : SBias.Idx → EReal)
    (x5 : SWt.Idx → EReal) :
    val_main_v8 (F := Ideal) x0 x1 x2 x3 x4 x5 = proj (val_main_v7 (F := Ideal) x0 x1 x2 x3 x4) x5 := by
  funext i
  rw [val_main_v8_apply]
  show _ = ∑ k : Fin 128, val_main_v7 (F := Ideal) x0 x1 x2 x3 x4 (ix2 (fst2 i) k) * x5 (ix2 k (snd2 i))
  exact Finset.sum_congr rfl fun k _ => by rw [lidx_v8, ridx_v8]

/-- The self-loop term H · SW₂. -/
theorem v13_eq (x0 : SX.Idx → EReal) (x1 : SA.Idx → EReal) (x2 x3 : SWt.Idx → EReal) (x4 : SBias.Idx → EReal)
    (x6 : SWt.Idx → EReal) :
    val_main_v13 (F := Ideal) x0 x1 x2 x3 x4 x6 = proj (val_main_v7 (F := Ideal) x0 x1 x2 x3 x4) x6 := by
  funext i
  rw [val_main_v13_apply]
  show _ = ∑ k : Fin 128, val_main_v7 (F := Ideal) x0 x1 x2 x3 x4 (ix2 (fst2 i) k) * x6 (ix2 k (snd2 i))
  exact Finset.sum_congr rfl fun k _ => by rw [lidx_v13, ridx_v13]

/-- The second bias, spread over all rows, is the bias row read at (0, column). -/
theorem v10_eq (x7 : SBias.Idx → EReal) (i : SX.Idx) :
    val_main_v10 (F := Ideal) x7 i = biasRow x7 (ix2 (0 : Fin 1) (snd2 i)) := by
  rw [val_main_v10_apply, val_main_v9_apply, row_v10, vec_v9]
  rfl

/-- The second support H · W₂ + b₂. -/
theorem v11_eq (x0 : SX.Idx → EReal) (x1 : SA.Idx → EReal) (x2 x3 : SWt.Idx → EReal) (x4 : SBias.Idx → EReal)
    (x5 : SWt.Idx → EReal) (x7 : SBias.Idx → EReal) :
    val_main_v11 (F := Ideal) x0 x1 x2 x3 x4 x5 x7
      = projBias (val_main_v7 (F := Ideal) x0 x1 x2 x3 x4) x5 (biasRow x7) := by
  funext i
  rw [val_main_v11_apply, v8_eq, v10_eq]
  rfl

/-- The operator applied to the second support, as a sum over the nodes. -/
theorem v12_eq (x0 : SX.Idx → EReal) (x1 : SA.Idx → EReal) (x2 x3 : SWt.Idx → EReal) (x4 : SBias.Idx → EReal)
    (x5 : SWt.Idx → EReal) (x7 : SBias.Idx → EReal) (i : SX.Idx) :
    val_main_v12 (F := Ideal) x0 x1 x2 x3 x4 x5 x7 i
      = ∑ k : Fin 10000, x1 (ix2 (fst2 i) k) * val_main_v11 (F := Ideal) x0 x1 x2 x3 x4 x5 x7 (ix2 k (snd2 i)) := by
  rw [val_main_v12_apply]
  exact Finset.sum_congr rfl fun k _ => by rw [lidx_v12, ridx_v12]

/-- The result g · S₂ + P₂. -/
theorem v14_eq (x0 : SX.Idx → EReal) (x1 : SA.Idx → EReal) (x2 x3 : SWt.Idx → EReal) (x4 : SBias.Idx → EReal)
    (x5 x6 : SWt.Idx → EReal) (x7 : SBias.Idx → EReal) :
    val_main_v14 (F := Ideal) x0 x1 x2 x3 x4 x5 x6 x7
      = agg x1 (val_main_v11 (F := Ideal) x0 x1 x2 x3 x4 x5 x7) (val_main_v13 (F := Ideal) x0 x1 x2 x3 x4 x6) := by
  funext i
  rw [val_main_v14_apply, v12_eq]
  rfl

/-- The reference's result, as a function of its eight arguments, is the two-layer convolution. -/
theorem result_eq (x0 : SX.Idx → EReal) (x1 : SA.Idx → EReal) (x2 x3 : SWt.Idx → EReal) (x4 : SBias.Idx → EReal)
    (x5 x6 : SWt.Idx → EReal) (x7 : SBias.Idx → EReal) :
    val_main_v14 (F := Ideal) x0 x1 x2 x3 x4 x5 x6 x7
      = conv2 x0 x1 x2 x3 (biasRow x4) x5 x6 (biasRow x7) := by
  rw [v14_eq, v11_eq, v13_eq, v7_eq]
  rfl

end Cert.ReferenceIdeal.RefValue

end
-- ==== Proof.lean ====
/-
  The kernel and the reference compute the same two-layer convolution.

  With x the features, g the operator, (w1, sw1, b1) and (w2, sw2, b2) the two layers' weights and biases,
      layer(h) = g · (h · w + b) + h · sw,      out = layer₂ (max (layer₁ x) 0).
  The kernel does it in three launches over row blocks — first x · w1 + b1 and x · sw1; then, per block of 200 rows of g,
  h = max (g · s1 + p1) 0 and from it h · w2 + b2 and h · sw2; last g · s2 + p2 — keeping g and the supports in a
  narrower float format on the way; the reference applies whole-array products. On the extended reals a change of
  format is the identity and a product is the plain sum over the contracted coordinate however it is tiled, so both
  results are one function of the arguments (`Cert.HConv.conv2`), index by index; no law used needs finiteness.

  The frames are the generated ones (the reference's is its run with the result dropped); the idealization rewrote
  nothing, so the kernel and its idealization are the same text.
-/
import proofs.«116259_g5179730559512_cont_sun_m_342_2_alg».proof.Defs
import proofs.«116259_g5179730559512_cont_sun_m_342_2_alg».proof.Proof.Gen.Kernel
import proofs.«116259_g5179730559512_cont_sun_m_342_2_alg».proof.Proof.Gen.Kernel.Skeleton
import proofs.«116259_g5179730559512_cont_sun_m_342_2_alg».proof.Proof.Gen.Kernel.Launch
import proofs.«116259_g5179730559512_cont_sun_m_342_2_alg».proof.Proof.Gen.Kernel.Points
import proofs.«116259_g5179730559512_cont_sun_m_342_2_alg».proof.Proof.Gen.Kernel.Frame
import proofs.«116259_g5179730559512_cont_sun_m_342_2_alg».proof.Proof.Gen.KernelIdeal
import proofs.«116259_g5179730559512_cont_sun_m_342_2_alg».proof.Proof.Gen.KernelIdeal.Skeleton
import proofs.«116259_g5179730559512_cont_sun_m_342_2_alg».proof.Proof.Gen.KernelIdeal.Launch
import proofs.«116259_g5179730559512_cont_sun_m_342_2_alg».proof.Proof.Gen.KernelIdeal.Points
import proofs.«116259_g5179730559512_cont_sun_m_342_2_alg».proof.Proof.Gen.KernelIdeal.Frame
import proofs.«116259_g5179730559512_cont_sun_m_342_2_alg».proof.Proof.Gen.ReferenceIdeal
import proofs.«116259_g5179730559512_cont_sun_m_342_2_alg».proof.Proof.Gen.ReferenceIdeal.Run
import proofs.«116259_g5179730559512_cont_sun_m_342_2_alg».proof.Proof.Gen.ReferenceIdeal.Read
import proofs.«116259_g5179730559512_cont_sun_m_342_2_alg».proof.Proof.Gen.Pre_finite_inputs
import proofs.«116259_g5179730559512_cont_sun_m_342_2_alg».proof.Proof.KernelRun
import proofs.«116259_g5179730559512_cont_sun_m_342_2_alg».proof.Proof.KernelValue
import proofs.«116259_g5179730559512_cont_sun_m_342_2_alg».proof.Proof.RefValue
import Idealize.ShloMosaic.Adequacy
import Idealize.ShloMosaic.Init

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the convolution of the arguments they were launched with, and the
    arguments agree. -/
theorem algebraic : Cert.algebraic_KernelIdeal_ReferenceIdeal := by
  intro m ρ m' ρ' _ hagree
  refine ⟨fun c => Cert.HConv.conv2
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.HConv.biasRow (m ((c.tc : Thread Cert.KernelIdeal.nD Cert.KernelIdeal.τ).loc Cert.KernelIdeal.main_arg4)))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (Cert.HConv.biasRow (m ((c.tc : Thread Cert.KernelIdeal.nD Cert.KernelIdeal.τ).loc Cert.KernelIdeal.main_arg7))), ?_, ?_⟩
  · exact (θ_run Cert.KernelIdeal.defs _ _).mono
      (fun r h c => ⟨(h c).1.trans (Cert.KernelIdeal.Stage.result_value m ρ c), (h c).2⟩)
      (Cert.KernelIdeal.GenP.run_out (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v14_eq, Cert.ReferenceIdeal.RefValue.result_eq,
      a0, a1, a2, a3, a4, a5, a6, a7]

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
